-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x192 : Shape := ⟨2, ![50000, 192]⟩
abbrev S800000x64 : Shape := ⟨2, ![800000, 64]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x192 : S_.BroadcastsInDim S50000x192 (![] : Fin 0 → Fin S50000x192.rank)
  reducesTo_S50000x192_S_d0_1 : S50000x192.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x192 .f32) (main_arg1 : FVec F S800000x64 .f32) (main_arg2 : IVec S800000 32) (main_arg3 : IVec S800000 32) (main_arg4 : FVec F S256x256 .f32) (main_arg5 : FVec F S256 .f32) : IVec S_ 1 :=
  let main_v0 : FVec F S50000x192 .f32 := Host.absf main_arg0
  let main_cst : FVec F S_ .f32 := constant S_ .f32 0x7F800000#32
  let main_v1 : FVec F S50000x192 .f32 := broadcastInDim S50000x192 ![] bcast_S_S50000x192 main_cst
  let main_v2 : IVec S50000x192 1 := cmpf .olt main_v0 main_v1
  let main_c : IVec S_ 1 := constantI S_ 1 1#1
  let main_v3 : IVec S_ 1 := (fun x v => Host.reduce IntOp.andi x v reducesTo_S50000x192_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x192 : Shape := ⟨2, ![50000, 192]⟩
abbrev S800000x64 : Shape := ⟨2, ![800000, 64]⟩
abbrev S800000 : Shape := ⟨1, ![800000]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x192 : Shape := ⟨2, ![800000, 192]⟩
abbrev S50000x64 : Shape := ⟨2, ![50000, 64]⟩
abbrev S50000x256 : Shape := ⟨2, ![50000, 256]⟩
abbrev S1x256 : Shape := ⟨2, ![1, 256]⟩
abbrev S2000x256 : Shape := ⟨2, ![2000, 256]⟩
abbrev S2000x1 : Shape := ⟨2, ![2000, 1]⟩

abbrev nBuf : Space → Nat
  | .hbm => 54
  | .vmem => 8
  | .smem => 0
  | _ => 0

abbrev bufTy : (tb : Table) → Fin (tcTables nBuf tb) → BufTy
  | .hbm, ⟨0, _⟩ => ⟨S50000x192, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S256x256, .f32⟩
  | .hbm, ⟨5, _⟩ => ⟨S256, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x192, .f32⟩
  | .hbm, ⟨21, _⟩ => ⟨S50000x192, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x192, .f32⟩
  | .hbm, ⟨31, _⟩ => ⟨S_, .f32⟩
  | .hbm, ⟨32, _⟩ => ⟨S50000x192, .f32⟩
  | .hbm, ⟨33, _⟩ => ⟨S800000x1, .i32⟩
  | .hbm, ⟨34, _⟩ => ⟨S50000x192, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x256, .f32⟩
  | .hbm, ⟨40, _⟩ => ⟨S_, .f32⟩
  | .hbm, ⟨41, _⟩ => ⟨S50000, .f32⟩
  | .hbm, ⟨42, _⟩ => ⟨S800000x1, .i32⟩
  | .hbm, ⟨43, _⟩ => ⟨S50000, .f32⟩
  | .hbm, ⟨44, _⟩ => ⟨S_, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S1x256, .f32⟩
  | .hbm, ⟨53, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x1, .f32⟩
  | .local _ .vmem, ⟨5, _⟩ => ⟨S2000x1, .f32⟩
  | .local _ .vmem, ⟨6, _⟩ => ⟨S2000x256, .f32⟩
  | .local _ .vmem, ⟨7, _⟩ => ⟨S2000x256, .f32⟩
  | _, _ => ⟨S50000x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x192_0_1 : S50000x1.BroadcastsInDim S50000x192 (![0, 1] : Fin 2 → Fin S50000x192.rank)
  bcast_S_S50000x192 : S_.BroadcastsInDim S50000x192 (![] : Fin 0 → Fin S50000x192.rank)
  bcast_S_S50000x64 : S_.BroadcastsInDim S50000x64 (![] : Fin 0 → Fin S50000x64.rank)
  concatenates_S50000x192_S50000x64_S50000x256_d1 : Shape.Concatenates [S50000x192, S50000x64] S50000x256 1
  shapeCasts_S50000_S50000x1 : S50000.ShapeCasts S50000x1
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S800000x1_S800000_n_0_0_1_wf : ScatterDims.WF S50000 S800000x1 S800000 [] [0] [0] 1
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  scatter_S50000x64_S800000x1_S800000x64_1_0_0_1_wf : ScatterDims.WF S50000x64 S800000x1 S800000x64 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v23) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x192 : Shape := ⟨2, ![50000, 192]⟩
abbrev S800000x64 : Shape := ⟨2, ![800000, 64]⟩
abbrev S800000 : Shape := ⟨1, ![800000]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x192 : Shape := ⟨2, ![800000, 192]⟩
abbrev S50000x64 : Shape := ⟨2, ![50000, 64]⟩
abbrev S50000x256 : Shape := ⟨2, ![50000, 256]⟩
abbrev S1x256 : Shape := ⟨2, ![1, 256]⟩

abbrev nBuf : Space → Nat
  | .hbm => 58
  | .vmem => 0
  | .smem => 0
  | _ => 0

abbrev bufTy : (tb : Table) → Fin (tcTables nBuf tb) → BufTy
  | .hbm, ⟨0, _⟩ => ⟨S50000x192, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S256x256, .f32⟩
  | .hbm, ⟨5, _⟩ => ⟨S256, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x192, .f32⟩
  | .hbm, ⟨21, _⟩ => ⟨S50000x192, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x192, .f32⟩
  | .hbm, ⟨31, _⟩ => ⟨S_, .f32⟩
  | .hbm, ⟨32, _⟩ => ⟨S50000x192, .f32⟩
  | .hbm, ⟨33, _⟩ => ⟨S800000x1, .i32⟩
  | .hbm, ⟨34, _⟩ => ⟨S50000x192, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x256, .f32⟩
  | .hbm, ⟨54, _⟩ => ⟨S50000x256, .f32⟩
  | .hbm, ⟨55, _⟩ => ⟨S1x256, .f32⟩
  | .hbm, ⟨56, _⟩ => ⟨S50000x256, .f32⟩
  | .hbm, ⟨57, _⟩ => ⟨S50000x256, .f32⟩
  | _, _ => ⟨S50000x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x192_0_1 : S50000x1.BroadcastsInDim S50000x192 (![0, 1] : Fin 2 → Fin S50000x192.rank)
  bcast_S_S50000x192 : S_.BroadcastsInDim S50000x192 (![] : Fin 0 → Fin S50000x192.rank)
  bcast_S_S50000x64 : S_.BroadcastsInDim S50000x64 (![] : Fin 0 → Fin S50000x64.rank)
  concatenates_S50000x192_S50000x64_S50000x256_d1 : Shape.Concatenates [S50000x192, S50000x64] S50000x256 1
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S800000x1_S800000_n_0_0_1_wf : ScatterDims.WF S50000 S800000x1 S800000 [] [0] [0] 1
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  scatter_S50000x64_S800000x1_S800000x64_1_0_0_1_wf : ScatterDims.WF S50000x64 S800000x1 S800000x64 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.HostPrefix.lean ====
/-
  The arrays the kernel region finds, as functions of the program's arguments.

  Before the region the host computes, from the node features `feat`, the edge features `edge` and the two index vectors
  `src`, `dst`:

  * the clipped count of an index vector: the number of edges at each node (a scatter-add of ones), at least 1; and the
    degree factor, that count to the power −1/2;
  * the aggregated features `h : [50000, 256]`: columns 0–191 are the scatter-add over `dst` of the rows of
    `feat · degFactor src` gathered at `src` (negative indices wrapped by 50000), columns 192–255 the scatter-add over
    `dst` of `edge`;
  * the in-degree factor `degFactor dst` reshaped to a column, and the bias reshaped to a row.

  These are the program's own host operations composed; nothing is computed here, and nothing depends on how floats are read.
  The operations come in five stretches; the features are read stretch by stretch: the first two give the clipped out-degree
  count, the third the joined array from it, the last two do not write it.
-/
import proofs.«141146_j13245679140923_1_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- The number of edges at each node, at least 1. -/
def clippedCount (idx : (⟨S800000, .i32⟩ : BufTy).Contents (Elt F)) : (⟨S50000, .f32⟩ : BufTy).Contents (Elt F) :=
  maximumf (broadcastInDim S50000 ![] bcast_S_S50000 (id (constant (F := F) S_ .f32 0x3F800000#32))) (Host.scatterAdd scatter_S50000_S800000x1_S800000_n_0_0_1 (broadcastInDim S50000 ![] bcast_S_S50000 (constant (F := F) S_ .f32 0x00000000#32)) (broadcastInDim S800000x1 ![0] bcast_S800000_S800000x1_0 idx) (broadcastInDim S800000 ![] bcast_S_S800000 (constant (F := F) S_ .f32 0x3F800000#32)))

/-- The degree factor of an index vector: (max 1 (number of edges at the node)) ^ (−1/2). -/
def degFactor (idx : (⟨S800000, .i32⟩ : BufTy).Contents (Elt F)) : (⟨S50000, .f32⟩ : BufTy).Contents (Elt F) :=
  Host.powf (clippedCount idx) (broadcastInDim S50000 ![] bcast_S_S50000 (constant (F := F) S_ .f32 0xBF000000#32))

/-- The aggregated node features from a given clipped out-degree count. -/
def aggregatedOf (x0 : (⟨S50000x192, .f32⟩ : BufTy).Contents (Elt F)) (x1 : (⟨S800000x64, .f32⟩ : BufTy).Contents (Elt F))
    (x2 x3 : (⟨S800000, .i32⟩ : BufTy).Contents (Elt F)) (cnt : (⟨S50000, .f32⟩ : BufTy).Contents (Elt F)) :
    (⟨S50000x256, .f32⟩ : BufTy).Contents (Elt F) :=
  concatenate S50000x256 1 [⟨S50000x192, (Host.scatterAdd scatter_S50000x192_S800000x1_S800000x192_1_0_0_1 (broadcastInDim S50000x192 ![] bcast_S_S50000x192 (constant (F := F) S_ .f32 0x00000000#32)) (broadcastInDim S800000x1 ![0] bcast_S800000_S800000x1_0 (x3)) (Host.gather gather_S50000x192_S800000x1_S800000x192_1_0_n_n_0_1_1192 (mulf (x0) (broadcastInDim S50000x192 ![0, 1] bcast_S50000x1_S50000x192_0_1 (broadcastInDim S50000x1 ![0] bcast_S50000_S50000x1_0 (Host.powf cnt (broadcastInDim S50000 ![] bcast_S_S50000 (constant (F := F) S_ .f32 0xBF000000#32)))))) (broadcastInDim S800000x1 ![0] bcast_S800000_S800000x1_0 (select (cmpi .slt (x2) (broadcastInDim S800000 ![] bcast_S_S800000 (constantI S_ 32 0#32))) (addi (x2) (broadcastInDim S800000 ![] bcast_S_S800000 (constantI S_ 32 50000#32))) (x2)))))⟩, ⟨S50000x64, (Host.scatterAdd scatter_S50000x64_S800000x1_S800000x64_1_0_0_1 (broadcastInDim S50000x64 ![] bcast_S_S50000x64 (constant (F := F) S_ .f32 0x00000000#32)) (broadcastInDim S800000x1 ![0] bcast_S800000_S800000x1_0 (x3)) (x1))⟩] concatenates_S50000x192_S50000x64_S50000x256_d1

/-- The aggregated node features the dense layer is applied to. -/
def aggregated (x0 : (⟨S50000x192, .f32⟩ : BufTy).Contents (Elt F)) (x1 : (⟨S800000x64, .f32⟩ : BufTy).Contents (Elt F))
    (x2 x3 : (⟨S800000, .i32⟩ : BufTy).Contents (Elt F)) : (⟨S50000x256, .f32⟩ : BufTy).Contents (Elt F) :=
  aggregatedOf x0 x1 x2 x3 (clippedCount x2)

/-! ## The stretches, over any contents `W` -/

section Stretches
variable (W : Valuation τ sig (Elt F))

/-- The first two stretches leave the clipped out-degree count in %4 … -/
theorem first_count : after hostOps0_1 (after hostOps0 W) (Proc.devRef .tc main_v4) = clippedCount (W (Proc.devRef .tc main_arg2)) := by
  simp only [hostOps0, hostOps0_1]
  after_results_simp
  simp only [TRef.ofBuf, TRef.toBuf, cast_eq]
  rfl

/-- … and the four arguments the third stretch reads as they were. -/
theorem first_arg0 : after hostOps0_1 (after hostOps0 W) (Proc.devRef .tc main_arg0) = W (Proc.devRef .tc main_arg0) := by
  simp only [hostOps0, hostOps0_1]; after_results_simp
theorem first_arg1 : after hostOps0_1 (after hostOps0 W) (Proc.devRef .tc main_arg1) = W (Proc.devRef .tc main_arg1) := by
  simp only [hostOps0, hostOps0_1]; after_results_simp
theorem first_arg2 : after hostOps0_1 (after hostOps0 W) (Proc.devRef .tc main_arg2) = W (Proc.devRef .tc main_arg2) := by
  simp only [hostOps0, hostOps0_1]; after_results_simp
theorem first_arg3 : after hostOps0_1 (after hostOps0 W) (Proc.devRef .tc main_arg3) = W (Proc.devRef .tc main_arg3) := by
  simp only [hostOps0, hostOps0_1]; after_results_simp

set_option maxRecDepth 8192 in
set_option maxHeartbeats 4000000 in
/-- The third stretch joins the two scatter-added halves. (Both operands of the join are themselves computed, so its
    operations are read back one rewrite at a time.) -/
theorem third_features : after hostOps0_2 W (Proc.devRef .tc main_v23)
    = aggregatedOf (W (Proc.devRef .tc main_arg0)) (W (Proc.devRef .tc main_arg1)) (W (Proc.devRef .tc main_arg2))
        (W (Proc.devRef .tc main_arg3)) (W (Proc.devRef .tc main_v4)) := by
  simp only [hostOps0_2]
  after_results
  rfl

/-- The last two stretches do not write the features. -/
theorem last_features : after hostOps0_4 (after hostOps0_3 W) (Proc.devRef .tc main_v23) = W (Proc.devRef .tc main_v23) := by
  simp only [hostOps0_3, hostOps0_4]; after_results_simp

end Stretches

variable (m : (ℓ : Loc nD τ sig) → Buf (Elt F) ℓ)

/-- The features window's array, as the region finds it. -/
theorem V_features (c : Dev nD) :
    V m c main_v23 = aggregated (m ((c : Thread nD τ).loc main_arg0)) (m ((c : Thread nD τ).loc main_arg1))
      (m ((c : Thread nD τ).loc main_arg2)) (m ((c : Thread nD τ).loc main_arg3)) := by
  dsimp only [V]
  simp only [List.flatten_cons, List.flatten_nil, List.append_nil, StableHlo.after_append]
  rw [last_features, third_features, first_count, first_arg0, first_arg1, first_arg2, first_arg3]
  rfl

set_option maxRecDepth 8192 in
set_option maxHeartbeats 2000000 in
/-- The in-degree window's array, as the region finds it: the in-degree factor as a column. -/
theorem V_indeg (c : Dev nD) :
    V m c main_v30 = shapeCast S50000x1 (degFactor (m ((c : Thread nD τ).loc main_arg3))) Facts₀.shapeCasts_S50000_S50000x1 := by
  dsimp only [V]
  simp only [hostOps0, hostOps0_1, hostOps0_2, hostOps0_3, hostOps0_4, List.flatten_cons, List.flatten_nil, List.append_nil,
    List.cons_append, List.nil_append]
  after_results_simp
  simp only [TRef.ofBuf, TRef.toBuf, cast_eq]
  rfl

set_option maxRecDepth 8192 in
set_option maxHeartbeats 2000000 in
/-- The bias window's array, as the region finds it: the bias as a row. -/
theorem V_bias (c : Dev nD) :
    V m c main_v31 = shapeCast S1x256 (m ((c : Thread nD τ).loc main_arg5)) Facts₀.shapeCasts_S256_S1x256 := by
  dsimp only [V]
  simp only [hostOps0, hostOps0_1, hostOps0_2, hostOps0_3, hostOps0_4, List.flatten_cons, List.flatten_nil, List.append_nil,
    List.cons_append, List.nil_append]
  after_results_simp
  rfl

end Cert.KernelIdeal.HostSide

end
-- ==== Proof.KernelBlock.lean ====
/-
  One grid point of the kernel, as arithmetic.

  At a grid point the body loads a block `x : [2000, 256]` of the aggregated features, the whole weight matrix
  `w : [256, 256]`, the matching block `d : [2000, 1]` of the in-degree column and the bias row `b : [1, 256]`, and stores
  `matmul (x, w) · d + b` with `d` broadcast along the columns and `b` along the rows. Over the extended reals the change
  of float format before the product is the identity and the product into a zero accumulator is the plain sum, so entry
  (p, q) of the stored block is

      (∑ k, x (p, k) · w (k, q)) · d (p, 0) + b (0, q).
-/
import proofs.«141146_j13245679140923_1_alg».proof.Proof.Gen.KernelIdeal.Skeleton
import Idealize.ShloMosaic.PureOps.Ideal.Laws
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

/-! ## The block product's operand indices, axis by axis -/

theorem lhs_axis0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_axis1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_axis0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_axis1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block's matrix product into a zero accumulator, at entry (p, q): the sum over the contracted axis. -/
theorem matmul_zero_apply {φ₁ φ₂ : FTy} (a : FVec Ideal S2000x256 φ₁) (b : FVec Ideal S256x256 φ₂) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) := by
  refine (Ideal.matmul_constant_zero_apply dot_S2000x256_S256x256_S2000x256_1_0_0_1_n_n none a b (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-- The in-degree column broadcast along the columns, at (p, q): the column's entry (p, 0). -/
theorem column_broadcast_apply (d : FVec Ideal S2000x1 .f32) (p : Fin 2000) (q : Fin 256) :
    broadcastTo S2000x256 d Facts₀.broadcasts_S2000x1_S2000x256 (ix2 p q) = d (ix2 p (0 : Fin 1)) :=
  broadcastTo_apply d _ (ix2 p q) (ix2 p (0 : Fin 1)) (fun a => match a with
    | ⟨0, _⟩ => by show p.val = if (2000 : Nat) = 1 then 0 else p.val; rw [if_neg (by decide)]
    | ⟨1, _⟩ => by show 0 = if (1 : Nat) = 1 then 0 else q.val; rw [if_pos rfl])

/-- The bias row broadcast along the rows, at (p, q): the row's entry (0, q). -/
theorem row_broadcast_apply (b : FVec Ideal S1x256 .f32) (p : Fin 2000) (q : Fin 256) :
    broadcastTo S2000x256 b Facts₀.broadcasts_S1x256_S2000x256 (ix2 p q) = b (ix2 (0 : Fin 1) q) :=
  broadcastTo_apply b _ (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- What the body stores, at entry (p, q) of the block. -/
theorem stored_apply (x : Vec Ideal S2000x256 .f32) (w : Vec Ideal S256x256 .f32) (d : Vec Ideal S2000x1 .f32) (b : Vec Ideal S1x256 .f32)
    (p : Fin 2000) (q : Fin 256) :
    k0_pay1 (F := Ideal) x w d b (ix2 p q)
      = (∑ k : Fin 256, x (ix2 p k) * w (ix2 k q)) * d (ix2 p (0 : Fin 1)) + b (ix2 (0 : Fin 1) q) := by
  unfold k0_pay1
  show (matmul dot_S2000x256_S256x256_S2000x256_1_0_0_1_n_n none (truncf .bf16 (shapeCast S2000x256 x Facts₀.shapeCasts_S2000x256_S2000x256) Facts₀.bitsLt_bf16_f32)
          (truncf .bf16 w Facts₀.bitsLt_bf16_f32) (constant (F := Ideal) S2000x256 .f32 0x00000000#32)) (ix2 p q)
        * broadcastTo S2000x256 (shapeCast S2000x1 d Facts₀.shapeCasts_S2000x1_S2000x1) Facts₀.broadcasts_S2000x1_S2000x256 (ix2 p q)
      + broadcastTo S2000x256 (shapeCast S1x256 b Facts₀.shapeCasts_S1x256_S1x256) Facts₀.broadcasts_S1x256_S2000x256 (ix2 p q) = _
  rw [matmul_zero_apply, shapeCast_self, shapeCast_self, shapeCast_self, column_broadcast_apply, row_broadcast_apply]
  rfl

end Cert.KernelIdeal.Block

end
-- ==== Proof.Spec.lean ====
/-
  The mathematics shared by the two programs.

  A graph-convolution layer ends in a dense map with a per-row scale and a per-column shift: for node features
  `h : [50000, 256]`, weights `w : [256, 256]`, a column of row scales `d : [50000, 1]` (the inverse square roots of the
  in-degrees) and a row of shifts `b : [1, 256]` (the bias),

      out (r, c) = (∑ k, h (r, k) · w (k, c)) · d (r, 0) + b (0, c).

  Over the extended reals this is one function of the four arrays; no law beyond the definition is used to compare the two
  programs, since both compute exactly this expression (a different tiling of the rows does not change any entry).

  The only layout facts needed: a vector reshaped to a column `[n] → [n, 1]` or to a row `[n] → [1, n]` is the same array as
  the vector broadcast along a new unit axis.
-/
import Idealize.ShloMosaic.PureOps.Ideal
import Idealize.ShloMosaic.Lib.ValueIdx
import Idealize.ShloMosaic.Lib.Pipeline.Value

noncomputable section

namespace Cert.GraphConv

open Idealize.ShloMosaic Idealize.ShloMosaic.ValueIdx

/-- The row-scaled, column-shifted matrix product, entry by entry. -/
def scaledDense (h : FVec Ideal ⟨2, ![50000, 256]⟩ .f32) (w : FVec Ideal ⟨2, ![256, 256]⟩ .f32)
    (d : FVec Ideal ⟨2, ![50000, 1]⟩ .f32) (b : FVec Ideal ⟨2, ![1, 256]⟩ .f32) : FVec Ideal ⟨2, ![50000, 256]⟩ .f32 :=
  fun i => (∑ k : Fin 256, h (ix2 (i 0) k) * w (ix2 k (i 1))) * d (ix2 (i 0) (0 : Fin 1)) + b (ix2 (0 : Fin 1) (i 1))

theorem scaledDense_apply (h : FVec Ideal ⟨2, ![50000, 256]⟩ .f32) (w : FVec Ideal ⟨2, ![256, 256]⟩ .f32)
    (d : FVec Ideal ⟨2, ![50000, 1]⟩ .f32) (b : FVec Ideal ⟨2, ![1, 256]⟩ .f32) (r : Fin 50000) (c : Fin 256) :
    scaledDense h w d b (ix2 r c)
      = (∑ k : Fin 256, h (ix2 r k) * w (ix2 k c)) * d (ix2 r (0 : Fin 1)) + b (ix2 (0 : Fin 1) c) := rfl

/-- A vector of 50000 entries reshaped to a column is the vector broadcast along a new trailing unit axis. -/
theorem column_of_vector {α : Type} (v : (⟨1, ![50000]⟩ : Shape).Idx → α)
    (hc : (⟨1, ![50000]⟩ : Shape).ShapeCasts ⟨2, ![50000, 1]⟩)
    (hb : (⟨1, ![50000]⟩ : Shape).BroadcastsInDim ⟨2, ![50000, 1]⟩ (![0] : Fin 1 → Fin 2)) :
    shapeCast ⟨2, ![50000, 1]⟩ v hc = broadcastInDim ⟨2, ![50000, 1]⟩ ![0] hb v := by
  funext i
  have h1 : (i 1).val = 0 := by have := (i 1).isLt; simp at this; omega
  rw [shapeCast_apply v hc i (ix1 (i 0)) (by
        rw [Shape.rowMajor_val_one, Shape.rowMajor_val_two]
        show (i 0).val = (i 0).val * 1 + (i 1).val
        rw [h1, Nat.mul_one, Nat.add_zero]),
    broadcastInDim_apply _ hb v i (ix1 (i 0)) (fun a => match a with
      | ⟨0, _⟩ => by show (i 0).val = if (50000 : Nat) = 1 then 0 else (i 0).val; rw [if_neg (by decide)])]

/-- A vector of 256 entries reshaped to a row is the vector broadcast along a new leading unit axis. -/
theorem row_of_vector {α : Type} (v : (⟨1, ![256]⟩ : Shape).Idx → α)
    (hc : (⟨1, ![256]⟩ : Shape).ShapeCasts ⟨2, ![1, 256]⟩)
    (hb : (⟨1, ![256]⟩ : Shape).BroadcastsInDim ⟨2, ![1, 256]⟩ (![1] : Fin 1 → Fin 2)) :
    shapeCast ⟨2, ![1, 256]⟩ v hc = broadcastInDim ⟨2, ![1, 256]⟩ ![1] hb v := by
  funext i
  have h0 : (i 0).val = 0 := by have := (i 0).isLt; simp at this; omega
  rw [shapeCast_apply v hc i (ix1 (i 1)) (by
        rw [Shape.rowMajor_val_one, Shape.rowMajor_val_two]
        show (i 1).val = (i 0).val * 256 + (i 1).val
        rw [h0, Nat.zero_mul, Nat.zero_add]),
    broadcastInDim_apply _ hb v i (ix1 (i 1)) (fun a => match a with
      | ⟨0, _⟩ => by show (i 1).val = if (256 : Nat) = 1 then 0 else (i 1).val; rw [if_neg (by decide)])]

end Cert.GraphConv

end
-- ==== Proof.KernelArray.lean ====
/-
  From the 25 blocks to the whole array.

  The grid has 25 points; point `t` reads rows `2000·t … 2000·t + 1999` of the aggregated features and of the in-degree
  column, the whole weight matrix and the whole bias row, and writes rows `2000·t … 2000·t + 1999` of the result. A block's
  coordinate on an axis is always (block index) × (block size) + (coordinate inside the block), so entry (p, q) of what point
  `t` writes is entry (2000·t + p, q) of `scaledDense` of the four arrays as the region finds them. Row `r` of the result lies in
  the block of point `r / 2000`, so the blocks cover the array and the array after the run is `scaledDense` of those arrays.
-/
import proofs.«141146_j13245679140923_1_alg».proof.Proof.Gen.KernelIdeal.Value
import proofs.«141146_j13245679140923_1_alg».proof.Proof.KernelBlock
import proofs.«141146_j13245679140923_1_alg».proof.Proof.Spec

noncomputable section

namespace Cert.KernelIdeal.Whole

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 25 points: the feature block, the in-degree block and the output block sit at block row
    `t`; the weights and the bias are the one block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry (p, q) of the block a point stores, when its loaded blocks are rows `2000·T + ·` of `H` and `Dc`, all of `W` and
    all of `B`: entry (2000·T + p, q) of `scaledDense H W Dc B`. -/
theorem stored_entry (H : FVec Ideal S50000x256 .f32) (W : FVec Ideal S256x256 .f32) (Dc : FVec Ideal S50000x1 .f32) (B : FVec Ideal S1x256 .f32)
    (x : Vec Ideal S2000x256 .f32) (w : Vec Ideal S256x256 .f32) (d : Vec Ideal S2000x1 .f32) (b : Vec Ideal S1x256 .f32)
    (T : Nat) (p : Fin 2000) (q : Fin 256) (hT : T * 2000 + p.val < 50000)
    (hx : ∀ k : Fin 256, x (ix2 p k) = H (ix2 (⟨T * 2000 + p.val, hT⟩ : Fin 50000) k))
    (hw : ∀ k : Fin 256, w (ix2 k q) = W (ix2 k q))
    (hd : d (ix2 p (0 : Fin 1)) = Dc (ix2 (⟨T * 2000 + p.val, hT⟩ : Fin 50000) (0 : Fin 1)))
    (hb : b (ix2 (0 : Fin 1) q) = B (ix2 (0 : Fin 1) q)) :
    k0_pay1 (F := Ideal) x w d b (ix2 p q) = scaledDense H W Dc B (ix2 (⟨T * 2000 + p.val, hT⟩ : Fin 50000) q) := by
  rw [Block.stored_apply, scaledDense_apply, hd, hb]
  refine congrArg (fun s => s * Dc (ix2 (⟨T * 2000 + p.val, hT⟩ : Fin 50000) (0 : Fin 1)) + B (ix2 (0 : Fin 1) q)) ?_
  exact Finset.sum_congr rfl fun k _ => by rw [hx k, hw k]

/-- WHAT A POINT WRITES BACK, for any four arrays: with the point's blocks read off `H`, `W`, `Dc`, `B` through the windows'
    rectangles, the stored block is block `t` of `scaledDense H W Dc B`. -/
theorem point_writes (t : Fin cfg0.N) (H : FVec Ideal S50000x256 .f32) (W : FVec Ideal S256x256 .f32)
    (Dc : FVec Ideal S50000x1 .f32) (B : FVec Ideal S1x256 .f32) :
    (cfg0.win 4).cut (grid0.coords t)
        (k0_pay1 (F := Ideal) (((cfg0.win 0).blk t).view.read (Elt Ideal) H) (((cfg0.win 1).blk t).view.read (Elt Ideal) W) (((cfg0.win 3).blk t).view.read (Elt Ideal) Dc) (((cfg0.win 2).blk t).view.read (Elt Ideal) B))
      = ((cfg0.win 4).blk t).view.read (Elt Ideal) (scaledDense H W Dc B) := by
  obtain ⟨e00, e01, e10, e11, e20, e21, e30, e31, e40, e41⟩ := index_facts t
  have hN : (t : Fin cfg0.N).val < 25 := lt_of_lt_of_eq t.isLt N_0
  funext j
  have hj0 : (j 0).val < 2000 := (j 0).isLt
  have hj1 : (j 1).val < 256 := (j 1).isLt
  have hT : t.val * 2000 + (j 0).val < 50000 := by omega
  have hxi : (cfg0.win 4).xinj (grid0.coords t) j = ix2 (⟨(j 0).val, hj0⟩ : Fin 2000) (⟨(j 1).val, hj1⟩ : Fin 256) :=
    funext fun a => Fin.ext (by
      match a with
      | ⟨0, _⟩ => rfl
      | ⟨1, _⟩ => rfl)
  have hemb : ((cfg0.win 4).blk t).view.emb j = ix2 (⟨t.val * 2000 + (j 0).val, hT⟩ : Fin 50000) (⟨(j 1).val, hj1⟩ : Fin 256) := by
    funext a; apply Fin.ext
    match a with
    | ⟨0, _⟩ => show win0_4.index t (0 : Fin 2) * 2000 + 1 * (j 0).val = t.val * 2000 + (j 0).val; omega
    | ⟨1, _⟩ => show win0_4.index t (1 : Fin 2) * 256 + 1 * (j 1).val = (j 1).val; omega
  refine (congrArg (k0_pay1 (F := Ideal) (((cfg0.win 0).blk t).view.read (Elt Ideal) H) (((cfg0.win 1).blk t).view.read (Elt Ideal) W) (((cfg0.win 3).blk t).view.read (Elt Ideal) Dc) (((cfg0.win 2).blk t).view.read (Elt Ideal) B)) hxi).trans ?_
  have hread : ∀ G : FVec Ideal S50000x256 .f32,
      ((cfg0.win 4).blk t).view.read (Elt Ideal) G j = G (((cfg0.win 4).blk t).view.emb j) := fun _ => rfl
  refine Eq.trans ?_ (hread _).symm
  rw [hemb]
  refine stored_entry H W Dc B (((cfg0.win 0).blk t).view.read (Elt Ideal) H) (((cfg0.win 1).blk t).view.read (Elt Ideal) W) (((cfg0.win 3).blk t).view.read (Elt Ideal) Dc) (((cfg0.win 2).blk t).view.read (Elt Ideal) B)
    t.val (⟨(j 0).val, hj0⟩ : Fin 2000) (⟨(j 1).val, hj1⟩ : Fin 256) hT ?_ ?_ ?_ ?_
  · intro k
    show H (((cfg0.win 0).blk t).view.emb (ix2 (⟨(j 0).val, hj0⟩ : Fin 2000) k)) = H (ix2 (⟨t.val * 2000 + (j 0).val, hT⟩ : Fin 50000) k)
    refine congrArg H (funext fun a => Fin.ext ?_)
    match a with
    | ⟨0, _⟩ => show win0_0.index t (0 : Fin 2) * 2000 + 1 * (j 0).val = t.val * 2000 + (j 0).val; omega
    | ⟨1, _⟩ => show win0_0.index t (1 : Fin 2) * 256 + 1 * k.val = k.val; omega
  · intro k
    show W (((cfg0.win 1).blk t).view.emb (ix2 k (⟨(j 1).val, hj1⟩ : Fin 256))) = W (ix2 k (⟨(j 1).val, hj1⟩ : Fin 256))
    refine congrArg W (funext fun a => Fin.ext ?_)
    match a with
    | ⟨0, _⟩ => show win0_1.index t (0 : Fin 2) * 256 + 1 * k.val = k.val; omega
    | ⟨1, _⟩ => show win0_1.index t (1 : Fin 2) * 256 + 1 * (j 1).val = (j 1).val; omega
  · show Dc (((cfg0.win 3).blk t).view.emb (ix2 (⟨(j 0).val, hj0⟩ : Fin 2000) (0 : Fin 1))) = Dc (ix2 (⟨t.val * 2000 + (j 0).val, hT⟩ : Fin 50000) (0 : Fin 1))
    refine congrArg Dc (funext fun a => Fin.ext ?_)
    match a with
    | ⟨0, _⟩ => show win0_3.index t (0 : Fin 2) * 2000 + 1 * (j 0).val = t.val * 2000 + (j 0).val; omega
    | ⟨1, _⟩ => show win0_3.index t (1 : Fin 2) * 1 + 1 * 0 = 0; omega
  · show B (((cfg0.win 2).blk t).view.emb (ix2 (0 : Fin 1) (⟨(j 1).val, hj1⟩ : Fin 256))) = B (ix2 (0 : Fin 1) (⟨(j 1).val, hj1⟩ : Fin 256))
    refine congrArg B (funext fun a => Fin.ext ?_)
    match a with
    | ⟨0, _⟩ => show win0_2.index t (0 : Fin 2) * 1 + 1 * 0 = 0; omega
    | ⟨1, _⟩ => show win0_2.index t (1 : Fin 2) * 256 + 1 * (j 1).val = (j 1).val; omega

/-- WHAT POINT `t` WRITES BACK is block `t` of `scaledDense` of the four windows' arrays as the region finds them. -/
theorem flushed_eq (c : Dev nD) (t : Fin cfg0.N) :
    (dats m 0 c).flushed 4 t = ((cfg0.win 4).blk t).view.read (Elt Ideal)
      (scaledDense (V m c (Pipeline.arrRef spec0 0)) (V m c (Pipeline.arrRef spec0 1)) (V m c (Pipeline.arrRef spec0 3)) (V m c (Pipeline.arrRef spec0 2))) := by
  rw [Value.flushed4]
  unfold out0_4
  rw [View.canon_unit_zero zero_offsets]
  simp only [View.ld_unit_zero (S := S2000x256) zero_offsets, View.ld_unit_zero (S := S256x256) zero_offsets,
    View.ld_unit_zero (S := S2000x1) zero_offsets, View.ld_unit_zero (S := S1x256) zero_offsets]
  unfold iblk
  exact point_writes t _ _ _ _

/-- An index of the result is in point `t`'s block iff each coordinate is in the block's range on its axis. -/
theorem mem_block (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v32).slice (win0_4.rect t)).set ↔ _
  rw [View.set_slice_whole, Rect.mem_set_unit]
  exact Iff.rfl

/-- Row `r` lies in the block of point `r / 2000`: the 25 blocks cover the array. -/
theorem covered (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  have hlt : (i 0).val / 2000 < cfg0.N := lt_of_lt_of_eq (by omega : (i 0).val / 2000 < 25) N_0.symm
  refine ⟨⟨(i 0).val / 2000, hlt⟩, flush0_4 _, ?_⟩
  obtain ⟨-, -, -, -, -, -, -, -, e40, e41⟩ := index_facts ⟨(i 0).val / 2000, hlt⟩
  have e40' : win0_4.index ⟨(i 0).val / 2000, hlt⟩ (0 : Fin 2) = (i 0).val / 2000 := e40
  rw [mem_block]
  intro a
  match a with
  | ⟨0, _⟩ =>
    show win0_4.index ⟨(i 0).val / 2000, hlt⟩ (0 : Fin 2) * 2000 ≤ (i 0).val ∧ (i 0).val < win0_4.index ⟨(i 0).val / 2000, hlt⟩ (0 : Fin 2) * 2000 + 2000
    omega
  | ⟨1, _⟩ =>
    show win0_4.index ⟨(i 0).val / 2000, hlt⟩ (1 : Fin 2) * 256 ≤ (i 1).val ∧ (i 1).val < win0_4.index ⟨(i 0).val / 2000, hlt⟩ (1 : Fin 2) * 256 + 256
    omega

/-- The four input windows' arrays, by name. -/
theorem arr_features (c : Dev nD) : V m c (Pipeline.arrRef spec0 0) = V m c main_v23 := rfl
theorem arr_weights (c : Dev nD) : V m c (Pipeline.arrRef spec0 1) = V m c main_arg4 := rfl
theorem arr_bias (c : Dev nD) : V m c (Pipeline.arrRef spec0 2) = V m c main_v31 := rfl
theorem arr_indeg (c : Dev nD) : V m c (Pipeline.arrRef spec0 3) = V m c main_v30 := rfl

/-- THE RESULT ARRAY after the run: `scaledDense` of the four arrays as the region finds them. -/
theorem final (c : Dev nD) : (dats m 0 c).arrAt 4 cfg0.N
    = scaledDense (V m c main_v23) (V m c main_arg4) (V m c main_v30) (V m c main_v31) :=
  ((dats m 0 c).arrAt_eq_of_cover 4 _ (fun t _ => flushed_eq m c t) covered).trans (by
    rw [arr_features, arr_weights, arr_indeg, arr_bias])

/-- The kernel's run with the result named. -/
theorem run : θ_run defs (onTc (τ := τ) (main (F := Ideal))) ⟨m, fun _ => 0, ρ⟩ fun r => ∀ c : Dev nD,
      r.2.mem ((c : Thread nD τ).loc main_v32) = scaledDense (V m c main_v23) (V m c main_arg4) (V m c main_v30) (V m c main_v31)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.ReferenceReading.lean ====
/-
  The reference's result is the row-scaled, column-shifted product.

  The reference multiplies the aggregated features `h` (its stage %23) by the weights on the host, multiplies by the
  in-degree factor broadcast from a column `[50000, 1]` (stage %31) and adds the bias broadcast from a row `[1, 256]`
  (stage %34). Entry (r, c) of the host product is ∑ k, h (r, k) · w (k, c); the two broadcasts read the column at (r, 0)
  and the row at (0, c). So the result is `scaledDense h w d b` at those four stages, entry by entry.
-/
import proofs.«141146_j13245679140923_1_alg».proof.Proof.Gen.ReferenceIdeal.Read
import proofs.«141146_j13245679140923_1_alg».proof.Proof.Spec

noncomputable section

namespace Cert.ReferenceIdeal.Reading

open Cert.ReferenceIdeal Cert.ReferenceIdeal.Read Idealize.ShloMosaic Idealize.ShloMosaic.ValueIdx Cert.GraphConv

theorem result_eq_scaledDense
    (x0 : (⟨S50000x192, .f32⟩ : BufTy).Contents (Elt Ideal)) (x1 : (⟨S800000x64, .f32⟩ : BufTy).Contents (Elt Ideal))
    (x2 x3 : (⟨S800000, .i32⟩ : BufTy).Contents (Elt Ideal)) (x4 : (⟨S256x256, .f32⟩ : BufTy).Contents (Elt Ideal))
    (x5 : (⟨S256, .f32⟩ : BufTy).Contents (Elt Ideal)) :
    val_main_v36 (F := Ideal) x0 x1 x2 x3 x4 x5
      = scaledDense (val_main_v23 (F := Ideal) x0 x1 x2 x3) x4 (val_main_v31 (F := Ideal) x3) (val_main_v34 (F := Ideal) x5) := by
  funext i
  have el : ∀ k : Fin 256, lidx_main_v24 i k = ix2 (i 0) k := fun k => funext fun a => Fin.ext (by
    match a with
    | ⟨0, _⟩ => rfl
    | ⟨1, _⟩ => rfl)
  have er : ∀ k : Fin 256, ridx_main_v24 i k = ix2 k (i 1) := fun k => funext fun a => Fin.ext (by
    match a with
    | ⟨0, _⟩ => rfl
    | ⟨1, _⟩ => rfl)
  have ed : idx_main_v32 i = ix2 (i 0) (0 : Fin 1) := funext fun a => Fin.ext (by
    match a with
    | ⟨0, _⟩ => rfl
    | ⟨1, _⟩ => rfl)
  have eb : idx_main_v35 i = ix2 (0 : Fin 1) (i 1) := funext fun a => Fin.ext (by
    match a with
    | ⟨0, _⟩ => rfl
    | ⟨1, _⟩ => rfl)
  rw [val_main_v36_apply, val_main_v33_apply, val_main_v24_apply, val_main_v32_apply, val_main_v35_apply]
  simp only [el, er, ed, eb, Ideal.mulf_def, Ideal.addf_def]
  rfl

end Cert.ReferenceIdeal.Reading

end
-- ==== Proof.Bridge.lean ====
/-
  The kernel's result array is the reference's result.

  Both programs prepare the dense layer's inputs with the same host operations on the same arguments: the aggregated features
  and the degree factor are, operation for operation, one term. The kernel hands the in-degree factor and the bias to its
  region as a column and a row made by `reshape`; the reference makes the same column and row by broadcasting along a new
  unit axis: the same arrays. So `scaledDense` of what the kernel's region finds is `scaledDense` of the reference's stages,
  which is the reference's result.
-/
import proofs.«141146_j13245679140923_1_alg».proof.Proof.HostPrefix
import proofs.«141146_j13245679140923_1_alg».proof.Proof.KernelArray
import proofs.«141146_j13245679140923_1_alg».proof.Proof.ReferenceReading

noncomputable section

namespace Cert.Proof.Bridge

open Idealize.ShloMosaic Idealize.ShloMosaic.TcCoe Idealize.SL.Sem Cert.GraphConv
open Cert.KernelIdeal (nD τ sig S50000x192 S800000x64 S800000 S256x256 S256 S50000x1 S1x256)

/-- The aggregated features: the same host operations in both programs, however floats are read. -/
theorem aggregated_eq {F : FTy → Type} [FloatOps F] (x0 : (⟨S50000x192, .f32⟩ : BufTy).Contents (Elt F))
    (x1 : (⟨S800000x64, .f32⟩ : BufTy).Contents (Elt F)) (x2 x3 : (⟨S800000, .i32⟩ : BufTy).Contents (Elt F)) :
    Cert.KernelIdeal.HostSide.aggregated (F := F) x0 x1 x2 x3 = Cert.ReferenceIdeal.Read.val_main_v23 (F := F) x0 x1 x2 x3 := rfl

/-- The degree factor: the same host operations in both programs, however floats are read. -/
theorem degFactor_eq {F : FTy → Type} [FloatOps F] (x3 : (⟨S800000, .i32⟩ : BufTy).Contents (Elt F)) :
    Cert.KernelIdeal.HostSide.degFactor (F := F) x3 = Cert.ReferenceIdeal.Read.val_main_v30 (F := F) x3 := rfl

/-- `scaledDense` of the kernel's four inputs is the reference's result, as functions of the six arguments. -/
theorem scaledDense_eq_reference (x0 : (⟨S50000x192, .f32⟩ : BufTy).Contents (Elt Ideal)) (x1 : (⟨S800000x64, .f32⟩ : BufTy).Contents (Elt Ideal))
    (x2 x3 : (⟨S800000, .i32⟩ : BufTy).Contents (Elt Ideal)) (x4 : (⟨S256x256, .f32⟩ : BufTy).Contents (Elt Ideal))
    (x5 : (⟨S256, .f32⟩ : BufTy).Contents (Elt Ideal)) :
    scaledDense (Cert.KernelIdeal.HostSide.aggregated (F := Ideal) x0 x1 x2 x3) x4
        (shapeCast S50000x1 (Cert.KernelIdeal.HostSide.degFactor (F := Ideal) x3) Cert.KernelIdeal.Facts₀.shapeCasts_S50000_S50000x1)
        (shapeCast S1x256 x5 Cert.KernelIdeal.Facts₀.shapeCasts_S256_S1x256)
      = Cert.ReferenceIdeal.Read.val_main_v36 (F := Ideal) x0 x1 x2 x3 x4 x5 := by
  rw [Cert.ReferenceIdeal.Reading.result_eq_scaledDense, aggregated_eq, degFactor_eq,
    column_of_vector _ _ Cert.ReferenceIdeal.Facts₀.bcast_S50000_S50000x1_0,
    row_of_vector _ _ Cert.ReferenceIdeal.Facts₀.bcast_S256_S1x256_1]
  rfl

variable (m : (ℓ : Loc nD τ sig) → Buf (Elt Ideal) ℓ)

/-- The kernel's result array, as a function of the program's arguments, is the reference's result of them. -/
theorem kernel_result (c : Dev nD) :
    scaledDense (Cert.KernelIdeal.Gen.V m c Cert.KernelIdeal.main_v23) (Cert.KernelIdeal.Gen.V m c Cert.KernelIdeal.main_arg4)
        (Cert.KernelIdeal.Gen.V m c Cert.KernelIdeal.main_v30) (Cert.KernelIdeal.Gen.V m c Cert.KernelIdeal.main_v31)
      = Cert.ReferenceIdeal.Read.val_main_v36 (F := Ideal)
          (m ((c : Thread nD τ).loc Cert.KernelIdeal.main_arg0)) (m ((c : Thread nD τ).loc Cert.KernelIdeal.main_arg1))
          (m ((c : Thread nD τ).loc Cert.KernelIdeal.main_arg2)) (m ((c : Thread nD τ).loc Cert.KernelIdeal.main_arg3))
          (m ((c : Thread nD τ).loc Cert.KernelIdeal.main_arg4)) (m ((c : Thread nD τ).loc Cert.KernelIdeal.main_arg5)) := by
  rw [Cert.KernelIdeal.HostSide.V_features, Cert.KernelIdeal.Gen.V_main_arg4, Cert.KernelIdeal.HostSide.V_indeg,
    Cert.KernelIdeal.HostSide.V_bias]
  exact scaledDense_eq_reference _ _ _ _ _ _

end Cert.Proof.Bridge

end
-- ==== Proof.lean ====
/-
  A graph-convolution layer: the kernel against its jnp reference, over the extended reals.

  Both programs aggregate node and edge features over the graph's edges on the host (gathers and scatter-adds, the same
  operations in both) and then apply a dense layer with an in-degree normalisation and a bias,

      out (r, c) = (∑ k, h (r, k) · w (k, c)) · indeg(r)^(−1/2) + bias (c).

  The reference does the dense layer on the host; the kernel does it in one pipelined region over 25 blocks of 2000 rows, the
  product through the matrix unit after a change of float format, which over the extended reals is the identity. The two
  results are the same function of the arguments entry by entry (Proof/Spec.lean states it; Proof/ReferenceReading.lean and
  Proof/KernelBlock.lean, Proof/KernelArray.lean read each side into it; Proof/HostPrefix.lean and Proof/Bridge.lean identify
  the host-side inputs). No algebraic law beyond the definitions is needed, so the finiteness precondition is never opened.
  The frames are the generated ones; the idealization rewrote nothing, so `preserves` is trivial.
-/
import proofs.«141146_j13245679140923_1_alg».proof.Defs
import proofs.«141146_j13245679140923_1_alg».proof.Proof.Gen.Kernel
import proofs.«141146_j13245679140923_1_alg».proof.Proof.Gen.Kernel.Skeleton
import proofs.«141146_j13245679140923_1_alg».proof.Proof.Gen.Kernel.Launch
import proofs.«141146_j13245679140923_1_alg».proof.Proof.Gen.Kernel.Points
import proofs.«141146_j13245679140923_1_alg».proof.Proof.Gen.Kernel.Frame
import proofs.«141146_j13245679140923_1_alg».proof.Proof.Gen.KernelIdeal
import proofs.«141146_j13245679140923_1_alg».proof.Proof.Gen.KernelIdeal.Skeleton
import proofs.«141146_j13245679140923_1_alg».proof.Proof.Gen.KernelIdeal.Launch
import proofs.«141146_j13245679140923_1_alg».proof.Proof.Gen.KernelIdeal.Points
import proofs.«141146_j13245679140923_1_alg».proof.Proof.Gen.KernelIdeal.Frame
import proofs.«141146_j13245679140923_1_alg».proof.Proof.Gen.ReferenceIdeal
import proofs.«141146_j13245679140923_1_alg».proof.Proof.Gen.Pre_finite_inputs
import proofs.«141146_j13245679140923_1_alg».proof.Proof.Gen.KernelIdeal.Value
import proofs.«141146_j13245679140923_1_alg».proof.Proof.Gen.ReferenceIdeal.Run
import proofs.«141146_j13245679140923_1_alg».proof.Proof.Gen.ReferenceIdeal.Read
import proofs.«141146_j13245679140923_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the reference's result of those arguments: the
    kernel's region leaves `scaledDense` of the arrays it finds, which is that result; the reference's run is that result of
    its own arguments, which agree with the kernel's. -/
theorem algebraic : Cert.algebraic_KernelIdeal_ReferenceIdeal := by
  intro m ρ m' ρ' _ hagree
  refine ⟨fun c => Cert.ReferenceIdeal.Read.val_main_v36 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)), ?_, ?_⟩
  · exact (θ_run Cert.KernelIdeal.defs _ _).mono
      (fun _ h c => ⟨(h c).1.trans (Bridge.kernel_result m c), (h c).2⟩) (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
